-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200 : Shape := ⟨2, ![1024, 200]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1024x200 .f32) : IVec S_ 1 :=
  let main_v0 : FVec F S1024x200 .f32 := Host.absf main_arg1
  let main_cst : FVec F S_ .f32 := constant S_ .f32 0x7F800000#32
  let main_v1 : FVec F S1024x200 .f32 := broadcastInDim S1024x200 ![] bcast_S_S1024x200 main_cst
  let main_v2 : IVec S1024x200 1 := cmpf .olt main_v0 main_v1
  let main_c : IVec S_ 1 := constantI S_ 1 1#1
  let main_v3 : IVec S_ 1 := (fun x v => Host.reduce IntOp.andi x v reducesTo_S1024x200_S_d0_1 h_S_) main_v2 main_c
  let main_c_0 : IVec S_ 32 := constantI S_ 32 0#32
  let main_v4 : IVec S1024x200 32 := broadcastInDim S1024x200 ![] bcast_S_S1024x200 main_c_0
  let main_v5 : IVec S1024x200 1 := cmpi .sge main_arg0 main_v4
  let main_c_1 : IVec S_ 1 := constantI S_ 1 1#1
  let main_v6 : IVec S_ 1 := (fun x v => Host.reduce IntOp.andi x v reducesTo_S1024x200_S_d0_1 h_S_) main_v5 main_c_1
  let main_v7 : IVec S_ 1 := andi main_v3 main_v6
  main_v7
-- ==== Kernel.lean ====
abbrev S1024x200 : Shape := ⟨2, ![1024, 200]⟩
abbrev S200x1024 : Shape := ⟨2, ![200, 1024]⟩
abbrev S1024x100352 : Shape := ⟨2, ![1024, 100352]⟩
abbrev S200x128 : Shape := ⟨2, ![200, 128]⟩
abbrev S128x1024 : Shape := ⟨2, ![128, 1024]⟩
abbrev S1x1x1024 : Shape := ⟨3, ![1, 1, 1024]⟩
abbrev S8x128 : Shape := ⟨2, ![8, 128]⟩
abbrev S8x128x1 : Shape := ⟨3, ![8, 128, 1]⟩
abbrev S8x128x1024 : Shape := ⟨3, ![8, 128, 1024]⟩
abbrev S1024x100000 : Shape := ⟨2, ![1024, 100000]⟩

abbrev nBuf : Space → Nat
  | .hbm => 6
  | .vmem => 6
  | .smem => 0
  | _ => 0

abbrev bufTy : (tb : Table) → Fin (tcTables nBuf tb) → BufTy
  | .hbm, ⟨0, _⟩ => ⟨S1024x200, .i32⟩
  | .hbm, ⟨1, _⟩ => ⟨S1024x200, .f32⟩
  | .hbm, ⟨2, _⟩ => ⟨S200x1024, .i32⟩
  | .hbm, ⟨3, _⟩ => ⟨S200x1024, .f32⟩
  | .hbm, ⟨4, _⟩ => ⟨S1024x100352, .f32⟩
  | .hbm, ⟨5, _⟩ => ⟨S1024x100000, .f32⟩
  | .local _ .vmem, ⟨0, _⟩ => ⟨S200x128, .i32⟩
  | .local _ .vmem, ⟨1, _⟩ => ⟨S200x128, .i32⟩
  | .local _ .vmem, ⟨2, _⟩ => ⟨S200x128, .f32⟩
  | .local _ .vmem, ⟨3, _⟩ => ⟨S200x128, .f32⟩
  | .local _ .vmem, ⟨4, _⟩ => ⟨S128x1024, .f32⟩
  | .local _ .vmem, ⟨5, _⟩ => ⟨S128x1024, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 98], ![false, false]⟩

@[reducible] def k0_t1_loop : Scf.Loop 32 :=
  let c0_i32 : BitVec 32 := 0#32
  let c25_i32 : BitVec 32 := 25#32
  let v5 : BitVec 32 := Scalar.addi c0_i32 c25_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v8 : BitVec 32 := Scalar.muli arg5 c8_i32
  v8
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v8 : BitVec 32 := Scalar.muli arg5 c8_i32
  let v9 : BitVec 32 := v8
  let v10 : Index := Scalar.indexCast v9
  let c0_2 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S200x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S1024x200_S200x1024_1_0 : S1024x200.Transposes [1, 0] S200x1024
  iota_S1x1x1024_d2_w32 : S1x1x1024.Iotas .tc 32 [2]
  h_S8x128 : 0 < S8x128.numel
  shapeCasts_S8x128_S8x128 : S8x128.ShapeCasts S8x128
  shapeCasts_S8x128_S8x128x1 : S8x128.ShapeCasts S8x128x1
  broadcasts_S8x128x1_S8x128x1024 : S8x128x1.Broadcasts S8x128x1024
  broadcasts_S1x1x1024_S8x128x1024 : S1x1x1024.Broadcasts S8x128x1024
  shapeCasts_S8x128x1_S8x128x1 : S8x128x1.ShapeCasts S8x128x1
  reduces_S8x128x1024_S128x1024 : S8x128x1024.Reduces [0] S128x1024
  inb_S128x1024_S128x1024_0_0 : ∀ a, (![0, 0] : Fin 2 → Nat) a + S128x1024.size a ≤ S128x1024.size a
  h_S128x1024 : 0 < S128x1024.numel
  slices_S1024x100352_S1024x100000_0_0 : S1024x100352.Slices ![0, 0] S1024x100000
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S200x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S200x1024.size a
  hwx0_0 : ∀ i : grid0.Coords, EltTy.bits .i32 = 32 ∨ (Rect.block (s := S200x1024) S200x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x1024.size a
  hwx0_1 : ∀ i : grid0.Coords, EltTy.bits .f32 = 32 ∨ (Rect.block (s := S200x1024) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x100352.size a
  hwx0_2 : ∀ i : grid0.Coords, EltTy.bits .f32 = 32 ∨ (Rect.block (s := S1024x100352) S128x1024.size (cc0_transform_2 i) (hinb0_2 i)).WholeWords (EltTy.packing .f32)

variable [Facts₀]

abbrev win0_0 : Pipeline.Window sig grid0 :=
  Pipeline.Window.ofSpec (Memref.whole main_v0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x200 : Shape := ⟨2, ![1024, 200]⟩
abbrev S1024 : Shape := ⟨1, ![1024]⟩
abbrev S1024x1 : Shape := ⟨2, ![1024, 1]⟩
abbrev S_ : Shape := ⟨0, ![]⟩
abbrev S1024x100000 : Shape := ⟨2, ![1024, 100000]⟩
abbrev S1024x200x1 : Shape := ⟨3, ![1024, 200, 1]⟩
abbrev S1024x200x2 : Shape := ⟨3, ![1024, 200, 2]⟩

abbrev nBuf : Space → Nat
  | .hbm => 25
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .f32⟩
  | .hbm, ⟨2, _⟩ => ⟨S1024, .i32⟩
  | .hbm, ⟨3, _⟩ => ⟨S1024x1, .i32⟩
  | .hbm, ⟨4, _⟩ => ⟨S_, .f32⟩
  | .hbm, ⟨5, _⟩ => ⟨S1024x100000, .f32⟩
  | .hbm, ⟨6, _⟩ => ⟨S_, .i32⟩
  | .hbm, ⟨7, _⟩ => ⟨S1024x1, .i32⟩
  | .hbm, ⟨8, _⟩ => ⟨S1024x1, .i1⟩
  | .hbm, ⟨9, _⟩ => ⟨S_, .i32⟩
  | .hbm, ⟨10, _⟩ => ⟨S1024x1, .i32⟩
  | .hbm, ⟨11, _⟩ => ⟨S1024x1, .i32⟩
  | .hbm, ⟨12, _⟩ => ⟨S1024x1, .i32⟩
  | .hbm, ⟨13, _⟩ => ⟨S_, .i32⟩
  | .hbm, ⟨14, _⟩ => ⟨S1024x200, .i32⟩
  | .hbm, ⟨15, _⟩ => ⟨S1024x200, .i1⟩
  | .hbm, ⟨16, _⟩ => ⟨S_, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200, .i32⟩
  | .hbm, ⟨21, _⟩ => ⟨S1024x200x1, .i32⟩
  | .hbm, ⟨22, _⟩ => ⟨S1024x200x1, .i32⟩
  | .hbm, ⟨23, _⟩ => ⟨S1024x200x2, .i32⟩
  | .hbm, ⟨24, _⟩ => ⟨S1024x100000, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x100000 : S_.BroadcastsInDim S1024x100000 (![] : Fin 0 → Fin S1024x100000.rank)
  bcast_S_S1024x1 : S_.BroadcastsInDim S1024x1 (![] : Fin 0 → Fin S1024x1.rank)
  bcast_S_S1024x200 : S_.BroadcastsInDim S1024x200 (![] : Fin 0 → Fin S1024x200.rank)
  bcast_S1024x1_S1024x200_0_1 : S1024x1.BroadcastsInDim S1024x200 (![0, 1] : Fin 2 → Fin S1024x200.rank)
  bcast_S1024x200_S1024x200x1_0_1 : S1024x200.BroadcastsInDim S1024x200x1 (![0, 1] : Fin 2 → Fin S1024x200x1.rank)
  concatenates_S1024x200x1_S1024x200x1_S1024x200x2_d2 : Shape.Concatenates [S1024x200x1, S1024x200x1] S1024x200x2 2
  scatter_S1024x100000_S1024x200x2_S1024x200_n_01_01_2_wf : ScatterDims.WF S1024x100000 S1024x200x2 S1024x200 [] [0, 1] [0, 1] 2

variable [Facts₀]

def scatter_S1024x100000_S1024x200x2_S1024x200_n_01_01_2 : ScatterDims S1024x100000 S1024x200x2 S1024x200 where
  updateWindowDims := []
  insertedWindowDims := [0, 1]
  scatterDimsToOperandDims := [0, 1]
  indexVectorDim := 2
  wf := scatter_S1024x100000_S1024x200x2_S1024x200_n_01_01_2_wf

class Facts : Prop extends Facts₀ where

variable [Facts]
-- ==== Proof.KernelChunk.lean ====
/-
  One chunk of the kernel's accumulation, read at an entry.

  The kernel's block for grid point `(bi, dj)` is a 128 × 1024 tile: 128 rows of the batch, 1024 consecutive columns
  `dj · 1024 + q`. Its body walks the 200 positions of the transposed inputs eight at a time. For one chunk of eight
  positions `r`, it compares the token at `(r, p)` with the column's number, keeps the weight at `(r, p)` where they
  are equal and zero elsewhere, sums the eight, and adds the sum to the running tile. This module reads that step at the
  entry `(p, q)` of the tile: the running value plus `∑ r, [tok (r, p) = dj · 1024 + q] · w (r, p)`.
-/
import proofs.«419220_j29300266893362_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.KernelIdeal.HistBody

open Cert.KernelIdeal Cert.KernelIdeal.Gen Idealize.ShloMosaic Idealize.ShloMosaic.ValueIdx

/-- A chunk's 8 × 128 array, given a trailing unit axis and repeated along 1024 columns, reads `(r, p)` at `(r, p, q)`. -/
theorem spread_apply {α : Type} (v : S8x128.Idx → α) (r : Fin 8) (p : Fin 128) (q : Fin 1024) :
    broadcastTo S8x128x1024 (shapeCast S8x128x1 (shapeCast S8x128 v Facts₀.shapeCasts_S8x128_S8x128) Facts₀.shapeCasts_S8x128_S8x128x1)
      Facts₀.broadcasts_S8x128x1_S8x128x1024 (ix3 r p q) = v (ix2 r p) := by
  rw [shapeCast_self]
  refine (broadcastTo_apply _ Facts₀.broadcasts_S8x128x1_S8x128x1024 (ix3 r p q) (ix3 r p (0 : Fin 1)) (fun a => ?_)).trans ?_
  · match a with
    | ⟨0, _⟩ => show r.val = if (8 : Nat) = 1 then 0 else r.val; rw [if_neg (by decide)]
    | ⟨1, _⟩ => show p.val = if (128 : Nat) = 1 then 0 else p.val; rw [if_neg (by decide)]
    | ⟨2, _⟩ => show (0 : Nat) = if (1 : Nat) = 1 then 0 else q.val; rw [if_pos rfl]
  · refine shapeCast_apply v Facts₀.shapeCasts_S8x128_S8x128x1 (ix3 r p (0 : Fin 1)) (ix2 r p) ?_
    rw [Shape.rowMajor_val_two, Shape.rowMajor_val_three]
    show r.val * 128 + p.val = (r.val * 128 + p.val) * 1 + 0
    omega

/-- The row of column numbers `base + q`, repeated over the chunk's positions and rows, reads `base + q` at `(r, p, q)`. -/
theorem columns_apply (base : BitVec 32) (r : Fin 8) (p : Fin 128) (q : Fin 1024) :
    broadcastTo S8x128x1024 (addi (broadcast S1x1x1024 base) (iota .tc S1x1x1024 32 [2] Facts₀.iota_S1x1x1024_d2_w32))
      Facts₀.broadcasts_S1x1x1024_S8x128x1024 (ix3 r p q) = base + BitVec.ofNat 32 q.val := by
  refine (broadcastTo_apply _ Facts₀.broadcasts_S1x1x1024_S8x128x1024 (ix3 r p q) (ix3 (0 : Fin 1) (0 : Fin 1) q) (fun a => ?_)).trans ?_
  · match a with
    | ⟨0, _⟩ => show (0 : Nat) = if (1 : Nat) = 1 then 0 else r.val; rw [if_pos rfl]
    | ⟨1, _⟩ => show (0 : Nat) = if (1 : Nat) = 1 then 0 else p.val; rw [if_pos rfl]
    | ⟨2, _⟩ => show q.val = if (1024 : Nat) = 1 then 0 else q.val; rw [if_neg (by decide)]
  · show base + iota .tc S1x1x1024 32 [2] Facts₀.iota_S1x1x1024_d2_w32 (ix3 (0 : Fin 1) (0 : Fin 1) q) = _
    rw [iota_single_apply]

/-- One chunk's step at the entry `(p, q)` of the tile of grid point `i`: the running value plus the weights of the chunk's
    eight positions whose token at row `p` is the column `i₁ · 1024 + q`. -/
theorem chunk_apply (i : grid0.Coords) (acc : FVec Ideal S128x1024 .f32) (v11 : Vec Ideal S8x128 .i32) (v14 : Vec Ideal S8x128 .f32)
    (p : Fin 128) (q : Fin 1024) :
    k0_pay2 (F := Ideal) i acc v11 v14 (ix2 p q)
      = acc (ix2 p q) + ∑ r : Fin 8, (if v11 (ix2 r p) = BitVec.ofNat 32 (i 1).val * 1024#32 + BitVec.ofNat 32 q.val then v14 (ix2 r p) else 0) := by
  unfold k0_pay2
  dsimp only
  refine congrArg (acc (ix2 p q) + ·) ?_
  refine (Ideal.multiReduction_add_single _ 0x00000000#32 Facts₀.reduces_S8x128x1024_S128x1024 (.inl rfl) rfl (ix2 p q)).trans ?_
  refine Finset.sum_congr rfl ?_
  intro (r : Fin 8) _
  have hl : (Facts₀.reduces_S8x128x1024_S128x1024).lift (ix2 p q) r = ix3 (n0 := 8) r p q := by
    funext a; match a with | ⟨0, _⟩ => rfl | ⟨1, _⟩ => rfl | ⟨2, _⟩ => rfl
  rw [hl]
  show Scalar.select (IntOp.cmpi .eq (broadcastTo S8x128x1024 _ _ (ix3 (n0 := 8) r p q)) (broadcastTo S8x128x1024 _ _ (ix3 (n0 := 8) r p q)))
    (broadcastTo S8x128x1024 _ _ (ix3 (n0 := 8) r p q)) (FloatOps.ofBits (F := Ideal) .f32 0#32) = _
  rw [shapeCast_self _ Facts₀.shapeCasts_S8x128x1_S8x128x1, spread_apply, spread_apply, columns_apply]
  show Scalar.select (IntOp.cmpi .eq (v11 (ix2 r p)) (BitVec.ofNat 32 (i 1).val * 1024#32 + BitVec.ofNat 32 q.val)) (v14 (ix2 r p))
    (Ideal.ofBits .f32 0x00000000#32) = _
  rw [Ideal.ofBits_zero_f32]
  unfold Scalar.select
  by_cases h : v11 (ix2 r p) = BitVec.ofNat 32 (i 1).val * 1024#32 + BitVec.ofNat 32 q.val
  · rw [if_pos h]; exact if_pos (StableHlo.Predicate.cmpi_eq_iff.2 h)
  · rw [if_neg h]; exact if_neg (fun hc => h (StableHlo.Predicate.cmpi_eq_iff.1 hc))

end Cert.KernelIdeal.HistBody

end
-- ==== Proof.KernelLoop.lean ====
/-
  The kernel's accumulation loop, read at an entry of the tile.

  The body runs 25 chunks of eight positions over the tile's running value, starting from zero. By induction on the
  number of chunks done, the running value at the entry `(p, q)` is the initial value plus, chunk by chunk, the weights
  of the positions whose token at row `p` is the tile's column `q`. After the 25 chunks, every one of the 200 positions
  has been visited once: position `s = 8 · c + r` in chunk `c`. What the body stores is that sum over all 200 positions.
-/
import proofs.«419220_j29300266893362_2_alg».proof.Proof.Gen.KernelIdeal.Frame
import proofs.«419220_j29300266893362_2_alg».proof.Proof.KernelChunk

noncomputable section

open scoped BigOperators

namespace Cert.KernelIdeal.HistBody

open Cert.KernelIdeal Cert.KernelIdeal.Gen Idealize.ShloMosaic Idealize.ShloMosaic.ValueIdx Idealize.ShloMosaic.TcCoe Idealize.SL.Sem

/-- The loop makes exactly 25 trips. -/
theorem trips_eq : k0_t1_loop.trips = 25 := by decide

/-- One trip of the loop is the chunk's step on the two 8 × 128 pieces it loads. -/
theorem trip_eq {F : FTy → Type} [FloatOps F] (𝒱 : Variants) (c : Dev nD) (bd : Option 𝒱.V) (i : grid0.Coords)
    (arg2 : Memref sig .tc .vmem S200x128 .i32) (harg2 : arg2.IsWhole) (arg3 : Memref sig .tc .vmem S200x128 .f32) (harg3 : arg3.IsWhole)
    (arg4 : Memref sig .tc .vmem S128x1024 .f32) (harg4 : arg4.IsWhole)
    (X2 : BufTy.Contents (Elt F) arg2.view.ty) (X3 : BufTy.Contents (Elt F) arg3.view.ty) (k : Fin k0_t1_loop.trips) (acc : FVec F S128x1024 .f32) :
    tripR_k0_t1 (F := F) 𝒱 c bd i arg2 harg2 arg3 harg3 arg4 harg4 X2 X3 k acc
      = k0_pay2 i acc (View.readAt (Elt F) arg2.view (Rect.unit (s := S200x128) (k0_off1 k) S8x128.size (Facts₀.k0_off1_inb k)).toLoadRect X2)
          (View.readAt (Elt F) arg3.view (Rect.unit (s := S200x128) (k0_off1 k) S8x128.size (Facts₀.k0_off1_inb k)).toLoadRect X3) := by
  unfold tripR_k0_t1 trip_k0_t1
  rfl

/-- The piece of a 200 × 128 block that chunk `k` loads holds, at `(r, p)`, the block's entry `(8 k + r, p)`. -/
theorem chunk_load {Val : EltTy → Type} {e : EltTy} (X : S200x128.Idx → Val e) (k : Fin k0_t1_loop.trips) (r : Fin 8) (p : Fin 128) (h : 8 * k.val + r.val < 200) :
    View.ld X (Rect.unit (s := S200x128) (k0_off1 k) S8x128.size (Facts₀.k0_off1_inb k)) (ix2 r p)
      = X (ix2 ⟨8 * k.val + r.val, h⟩ p) := by
  refine congrArg X (funext fun a => Fin.ext ?_)
  match a with
  | ⟨0, _⟩ =>
    show k0_off1 k 0 + 1 * r.val = 8 * k.val + r.val
    rw [k0_off1_eq k]; show 8 * k.val + 1 * r.val = _; omega
  | ⟨1, _⟩ =>
    show k0_off1 k 1 + 1 * p.val = p.val
    rw [k0_off1_eq k]; show 0 + 1 * p.val = _; omega

/-- What chunk `k` (below 25) adds at row `p` for the column word `col`: the weights of its eight positions `8 k + r` whose
    token is `col`; nothing for `k` past the last chunk. -/
def chunkTerm (x0 : S200x128.Idx → BitVec 32) (x1 : S200x128.Idx → EReal) (col : BitVec 32) (p : Fin 128) (k : ℕ) : EReal :=
  if h : k < 25 then ∑ r : Fin 8, (if x0 (ix2 ⟨8 * k + r.val, by omega⟩ p) = col then x1 (ix2 ⟨8 * k + r.val, by omega⟩ p) else 0) else 0

/-- After `n` chunks the running value at `(p, q)` is the initial one plus the first `n` chunks' terms. -/
theorem loop_apply (c : Dev nD) (i : grid0.Coords)
    (arg2 : Memref sig .tc .vmem S200x128 .i32) (harg2 : arg2.IsWhole) (arg3 : Memref sig .tc .vmem S200x128 .f32) (harg3 : arg3.IsWhole)
    (arg4 : Memref sig .tc .vmem S128x1024 .f32) (harg4 : arg4.IsWhole)
    (x0 : Vec Ideal S200x128 .i32) (x1 : Vec Ideal S200x128 .f32) (init : FVec Ideal S128x1024 .f32) (p : Fin 128) (q : Fin 1024) :
    ∀ n, n ≤ 25 →
      st_k0_t1 (F := Ideal) Variants.none c none i arg2 harg2 arg3 harg3 arg4 harg4 (harg2.unread x0) (harg3.unread x1) init n (ix2 p q)
        = init (ix2 p q) + ∑ k ∈ Finset.range n, chunkTerm x0 x1 (BitVec.ofNat 32 (i 1).val * 1024#32 + BitVec.ofNat 32 q.val) p k := by
  intro n
  induction n with
  | zero => intro _; rw [Finset.range_zero, Finset.sum_empty, add_zero]; rfl
  | succ n ih =>
    intro hn
    have hk : n < k0_t1_loop.trips := by rw [trips_eq]; omega
    rw [Finset.sum_range_succ, ← add_assoc, ← ih (by omega)]
    rw [show n + 1 = (⟨n, hk⟩ : Fin k0_t1_loop.trips).val + 1 from rfl, st_k0_t1_succ, trip_eq, chunk_apply]
    refine congrArg (st_k0_t1 (F := Ideal) Variants.none c none i arg2 harg2 arg3 harg3 arg4 harg4 (harg2.unread x0) (harg3.unread x1) init n (ix2 p q) + ·) ?_
    unfold chunkTerm
    rw [dif_pos (by omega : n < 25)]
    refine Finset.sum_congr rfl fun r _ => ?_
    rw [View.readAt_eq_ld, View.readAt_eq_ld, harg2.read_unread, harg3.read_unread]
    rw [chunk_load x0 ⟨n, hk⟩ r p (by show 8 * n + r.val < 200; omega), chunk_load x1 ⟨n, hk⟩ r p (by show 8 * n + r.val < 200; omega)]

/-- The 200 positions, chunk by chunk: a sum over all positions is the sum over the 25 chunks of the chunk's eight. -/
theorem sum_positions (f : Fin 200 → EReal) :
    ∑ s : Fin 200, f s = ∑ k ∈ Finset.range 25, (if h : k < 25 then ∑ r : Fin 8, f ⟨8 * k + r.val, by omega⟩ else 0) := by
  rw [Finset.sum_range (fun k => if h : k < 25 then ∑ r : Fin 8, f ⟨8 * k + r.val, by omega⟩ else 0)]
  rw [← (finProdFinEquiv (m := 25) (n := 8)).sum_comp f, Fintype.sum_prod_type]
  refine Finset.sum_congr rfl fun k _ => ?_
  rw [dif_pos k.isLt]
  refine Finset.sum_congr rfl fun r _ => ?_
  refine congrArg f (Fin.ext ?_)
  show r.val + 8 * k.val = 8 * k.val + r.val
  omega

/-- WHAT THE BODY STORES, at the entry `(p, q)` of the tile of grid point `i`, from input blocks `x0` (tokens, positions by
    rows) and `x1` (weights): the weights of the positions whose token at row `p` is the column `i₁ · 1024 + q`. -/
theorem body_apply (c : Dev nD) (i : grid0.Coords)
    (arg2 : Memref sig .tc .vmem S200x128 .i32) (harg2 : arg2.IsWhole) (arg3 : Memref sig .tc .vmem S200x128 .f32) (harg3 : arg3.IsWhole)
    (arg4 : Memref sig .tc .vmem S128x1024 .f32) (harg4 : arg4.IsWhole)
    (x0 : Vec Ideal S200x128 .i32) (x1 : Vec Ideal S200x128 .f32) (p : Fin 128) (q : Fin 1024) :
    out0_A_2 (F := Ideal) c i arg2 harg2 arg3 harg3 arg4 harg4 x0 x1 (ix2 p q)
      = ∑ s : Fin 200, (if x0 (ix2 s p) = BitVec.ofNat 32 (i 1).val * 1024#32 + BitVec.ofNat 32 q.val then x1 (ix2 s p) else 0) := by
  have hz : (![0, 0] : Fin 2 → Nat) = fun _ => 0 := by funext a; match a with | ⟨0, _⟩ => rfl | ⟨1, _⟩ => rfl
  unfold out0_A_2
  rw [View.read_writes_eq_canon _ _ _ (cover0_A_2 c i arg2 harg2 arg3 harg3 arg4 harg4 x0 x1)]
  unfold kernelRun0_A
  dsimp only
  rw [View.canon_unit_zero hz]
  refine (loop_apply c i arg2 harg2 arg3 harg3 arg4 harg4 x0 x1 k0_pay1 p q 25 (le_refl _)).trans ?_
  rw [sum_positions]
  have h0 : k0_pay1 (F := Ideal) (ix2 p q) = 0 := Ideal.ofBits_zero_f32
  rw [h0, zero_add]
  rfl

end Cert.KernelIdeal.HistBody

end
-- ==== Proof.Spec.lean ====
/-
  The common value of the two programs, as one function of the argument arrays.

  For a row `b` and a column `d`, the histogram entry is the sum, over the 200 positions `s` of the row, of the weight
  `w (b, s)` at the positions whose token equals `d` (read as a 32-bit word): a weighted count of the occurrences of `d`
  in row `b`. The number of columns `D` is a parameter, because the kernel fills 100352 columns (98 blocks of 1024) of
  which the first 100000 are kept, while the reference has exactly 100000: the entry's formula does not depend on `D`.
-/
import Idealize.ShloMosaic.Lib.ValueIdx

noncomputable section

open scoped BigOperators

namespace Cert.Spec

open Idealize.ShloMosaic Idealize.ShloMosaic.ValueIdx

/-- The shape of the two arguments: 1024 rows of 200 positions. -/
abbrev STok : Shape := ⟨2, ![1024, 200]⟩

/-- The weighted histogram with `D` columns: entry `(b, d)` is `∑ s, [tok (b, s) = d] · w (b, s)`. -/
def counts (D : Nat) (tok : STok.Idx → BitVec 32) (w : STok.Idx → EReal) : (⟨2, ![1024, D]⟩ : Shape).Idx → EReal :=
  fun i => ∑ s : Fin 200, if tok (ix2 (i 0) s) = BitVec.ofNat 32 (i 1).val then w (ix2 (i 0) s) else 0

/-- The entry at explicit coordinates. -/
theorem counts_apply (D : Nat) (tok : STok.Idx → BitVec 32) (w : STok.Idx → EReal) (b : Fin 1024) (d : Fin D) :
    counts D tok w (ix2 b d) = ∑ s : Fin 200, if tok (ix2 b s) = BitVec.ofNat 32 d.val then w (ix2 b s) else 0 := rfl

end Cert.Spec

end
-- ==== Proof.KernelBlocks.lean ====
/-
  From the tiles to the whole array.

  Grid point `t = 98 · bi + dj` of the 8 × 98 grid works on rows `128 · bi + p` of the batch and columns `1024 · dj + q`.
  Its two input blocks are the columns `128 · bi + p` of the transposed arguments (positions by rows), so the entry
  `(s, p)` of an input block is the argument's entry `(128 · bi + p, s)`. With the body's value from the loop, the tile
  written back at `t` is the tile of the 100352-column histogram of the arguments; the 784 tiles cover the 1024 × 100352
  array, which therefore ends holding that histogram; the result keeps its first 100000 columns.
-/
import proofs.«419220_j29300266893362_2_alg».proof.Proof.Gen.KernelIdeal.Frame
import proofs.«419220_j29300266893362_2_alg».proof.Proof.KernelLoop
import proofs.«419220_j29300266893362_2_alg».proof.Proof.Spec
import Idealize.ShloMosaic.Lib.ValueLayout
import Idealize.ShloMosaic.Lib.StableHlo.Run

noncomputable section

open scoped BigOperators

namespace Cert.KernelIdeal.HistBody

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The index maps over the grid: the inputs' blocks move with the row tile `t / 98`, the output's with both coordinates,
    and the second grid coordinate is `t % 98`. -/
theorem idx_facts : ∀ t : Fin cfg0.N,
    win0_0.index t (0 : Fin 2) = 0 ∧ win0_0.index t (1 : Fin 2) = t.val / 98
    ∧ win0_1.index t (0 : Fin 2) = 0 ∧ win0_1.index t (1 : Fin 2) = t.val / 98
    ∧ win0_2.index t (0 : Fin 2) = t.val / 98 ∧ win0_2.index t (1 : Fin 2) = t.val % 98
    ∧ (grid0.coords t (1 : Fin 2)).val = t.val % 98 :=
  (by decide +kernel : ∀ t : Fin grid0.N, _)

/-- The region finds the transposed tokens in its first array … -/
theorem V_tokens (c : Dev nD) :
    (V m c main_v0 : S200x1024.Idx → BitVec 32)
      = transpose S200x1024 [1, 0] (m ((c : Thread nD τ).loc main_arg0)) Facts₀.transposes_S1024x200_S200x1024_1_0 := by
  show StableHlo.after hostOps0 (fun b => m (c, b)) (Proc.devRef .tc main_v0) = _
  after_results

/-- … and the transposed weights in its second. -/
theorem V_weights (c : Dev nD) :
    (V m c main_v1 : S200x1024.Idx → EReal)
      = transpose S200x1024 [1, 0] (m ((c : Thread nD τ).loc main_arg1)) Facts₀.transposes_S1024x200_S200x1024_1_0 := by
  show StableHlo.after hostOps0 (fun b => m (c, b)) (Proc.devRef .tc main_v1) = _
  after_results

/-- The tokens' block at point `t`, at `(s, p)`: the token of batch row `128 · (t / 98) + p` at position `s`. -/
theorem tok_block (c : Dev nD) (t : Fin cfg0.N) (s : Fin 200) (p : Fin 128) (h : 128 * (t.val / 98) + p.val < 1024) :
    (iblk m c 0 t : Vec Ideal S200x128 .i32) (ix2 s p)
      = (m ((c : Thread nD τ).loc main_arg0) : S1024x200.Idx → BitVec 32) (ix2 ⟨128 * (t.val / 98) + p.val, h⟩ s) := by
  obtain ⟨e0, e1, -⟩ := idx_facts t
  unfold iblk
  rw [View.read_apply]
  show (V m c main_v0 : S200x1024.Idx → BitVec 32) _ = _
  rw [V_tokens]
  refine Eq.trans (congrArg _ ?_) (transpose_ix2_apply _ Facts₀.transposes_S1024x200_S200x1024_1_0 s ⟨128 * (t.val / 98) + p.val, h⟩)
  funext a
  apply Fin.ext
  match a with
  | ⟨0, _⟩ => show win0_0.index t (0 : Fin 2) * 200 + 1 * s.val = s.val; rw [e0]; omega
  | ⟨1, _⟩ => show win0_0.index t (1 : Fin 2) * 128 + 1 * p.val = 128 * (t.val / 98) + p.val; rw [e1]; omega

/-- The weights' block at point `t`, at `(s, p)`: the weight of batch row `128 · (t / 98) + p` at position `s`. -/
theorem wt_block (c : Dev nD) (t : Fin cfg0.N) (s : Fin 200) (p : Fin 128) (h : 128 * (t.val / 98) + p.val < 1024) :
    (iblk m c 1 t : Vec Ideal S200x128 .f32) (ix2 s p)
      = (m ((c : Thread nD τ).loc main_arg1) : S1024x200.Idx → EReal) (ix2 ⟨128 * (t.val / 98) + p.val, h⟩ s) := by
  obtain ⟨-, -, e0, e1, -⟩ := idx_facts t
  unfold iblk
  rw [View.read_apply]
  show (V m c main_v1 : S200x1024.Idx → EReal) _ = _
  rw [V_weights]
  refine Eq.trans (congrArg _ ?_) (transpose_ix2_apply _ Facts₀.transposes_S1024x200_S200x1024_1_0 s ⟨128 * (t.val / 98) + p.val, h⟩)
  funext a
  apply Fin.ext
  match a with
  | ⟨0, _⟩ => show win0_1.index t (0 : Fin 2) * 200 + 1 * s.val = s.val; rw [e0]; omega
  | ⟨1, _⟩ => show win0_1.index t (1 : Fin 2) * 128 + 1 * p.val = 128 * (t.val / 98) + p.val; rw [e1]; omega

/-- The 1024 × 100352 histogram of the arguments: what the kernel's array ends holding. -/
abbrev wide (c : Dev nD) : S1024x100352.Idx → EReal :=
  Cert.Spec.counts 100352 (m ((c : Thread nD τ).loc main_arg0)) (m ((c : Thread nD τ).loc main_arg1))

/-- THE TILE of point `t`, at `(p, q)`: the histogram's entry at row `128 · (t / 98) + p`, column `1024 · (t % 98) + q`. -/
theorem tile_apply (c : Dev nD) (t : Fin cfg0.N) (p : Fin 128) (q : Fin 1024)
    (hb : 128 * (t.val / 98) + p.val < 1024) (hd : 1024 * (t.val % 98) + q.val < 100352) :
    (outsAt0 m c t : Vec Ideal S128x1024 .f32) (ix2 p q)
      = wide m c (ix2 ⟨128 * (t.val / 98) + p.val, hb⟩ ⟨1024 * (t.val % 98) + q.val, hd⟩) := by
  obtain ⟨-, -, -, -, -, -, e6⟩ := idx_facts t
  unfold outsAt0
  rw [body_apply]
  show _ = ∑ s : Fin 200, _
  refine Finset.sum_congr rfl fun s _ => ?_
  rw [tok_block m c t s p hb, wt_block m c t s p hb]
  have hw : BitVec.ofNat 32 (grid0.coords t (1 : Fin 2)).val * 1024#32 + BitVec.ofNat 32 q.val
      = BitVec.ofNat 32 (1024 * (t.val % 98) + q.val) := by
    rw [e6]
    apply BitVec.eq_of_toNat_eq
    simp only [BitVec.toNat_add, BitVec.toNat_mul, BitVec.toNat_ofNat]
    omega
  rw [hw]

/-- WHAT POINT `t` WRITES BACK is tile `t` of the wide histogram. -/
theorem flushed_eq (c : Dev nD) (t : Fin cfg0.N) (_hf : (cfg0.win 2).flush t = true) :
    (dats m 0 c).flushed 2 t = ((cfg0.win 2).blk t).view.read (Elt Ideal) (wide m c) := by
  obtain ⟨-, -, -, -, e4, e5, -⟩ := idx_facts t
  show (cfg0.win 2).cut (grid0.coords t) ((dats m 0 c).after 2 t) = _
  rw [after0_2]
  funext j
  have hj0 : (j 0).val < 128 := (j 0).isLt
  have hj1 : (j 1).val < 1024 := (j 1).isLt
  have ht : t.val < 784 := Nat.lt_of_lt_of_eq t.isLt (show cfg0.N = 784 from N_0)
  have hx : (cfg0.win 2).xinj (grid0.coords t) j = (ix2 ⟨(j 0).val, hj0⟩ ⟨(j 1).val, hj1⟩ : S128x1024.Idx) := by
    funext a; match a with | ⟨0, _⟩ => rfl | ⟨1, _⟩ => rfl
  rw [View.read_apply]
  refine (congrArg (outsAt0 m c t : Vec Ideal S128x1024 .f32) hx).trans ?_
  refine (tile_apply m c t ⟨(j 0).val, hj0⟩ ⟨(j 1).val, hj1⟩ (by show 128 * (t.val / 98) + (j 0).val < 1024; omega)
    (by show 1024 * (t.val % 98) + (j 1).val < 100352; omega)).trans ?_
  refine congrArg (wide m c) ?_
  funext a
  apply Fin.ext
  match a with
  | ⟨0, _⟩ => show 128 * (t.val / 98) + (j 0).val = win0_2.index t (0 : Fin 2) * 128 + 1 * (j 0).val; rw [e4]; omega
  | ⟨1, _⟩ => show 1024 * (t.val % 98) + (j 1).val = win0_2.index t (1 : Fin 2) * 1024 + 1 * (j 1).val; rw [e5]; omega

/-- An index of the array is in point `t`'s tile iff each coordinate is in the tile's range on its axis. -/
theorem mem_tile (t : Fin cfg0.N) (i : S1024x100352.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v2).slice (win0_2.rect t)).set ↔ _
  rw [View.set_slice_whole, Rect.mem_set_unit]
  exact Iff.rfl

/-- Every entry of the array lies in the tile of the point `98 · (row / 128) + column / 1024`. -/
theorem tiles_cover (i : S1024x100352.Idx) :
    ∃ t : Fin cfg0.N, (cfg0.win 2).flush t = true ∧ i ∈ ((cfg0.win 2).blk t).view.set := by
  have hi0 : (i 0).val < 1024 := (i 0).isLt
  have hi1 : (i 1).val < 100352 := (i 1).isLt
  have hN : cfg0.N = 784 := N_0
  refine ⟨⟨98 * ((i 0).val / 128) + (i 1).val / 1024, by rw [hN]; omega⟩, flush0_2 _, ?_⟩
  obtain ⟨-, -, -, -, e4, e5, -⟩ := idx_facts ⟨98 * ((i 0).val / 128) + (i 1).val / 1024, by rw [hN]; omega⟩
  rw [mem_tile]
  intro a
  match a with
  | ⟨0, _⟩ =>
    show win0_2.index _ (0 : Fin 2) * 128 ≤ (i 0).val ∧ (i 0).val < win0_2.index _ (0 : Fin 2) * 128 + 128
    rw [e4]; show (98 * ((i 0).val / 128) + (i 1).val / 1024) / 98 * 128 ≤ _ ∧ _ < (98 * ((i 0).val / 128) + (i 1).val / 1024) / 98 * 128 + 128
    omega
  | ⟨1, _⟩ =>
    show win0_2.index _ (1 : Fin 2) * 1024 ≤ (i 1).val ∧ (i 1).val < win0_2.index _ (1 : Fin 2) * 1024 + 1024
    rw [e5]; show (98 * ((i 0).val / 128) + (i 1).val / 1024) % 98 * 1024 ≤ _ ∧ _ < (98 * ((i 0).val / 128) + (i 1).val / 1024) % 98 * 1024 + 1024
    omega

/-- THE ARRAY after the run is the wide histogram of the arguments. -/
theorem final_wide (c : Dev nD) : (dats m 0 c).arrAt 2 cfg0.N = wide m c :=
  (dats m 0 c).arrAt_eq_of_cover 2 (wide m c) (flushed_eq m c) tiles_cover

end Cert.KernelIdeal.HistBody

end
-- ==== Proof.KernelRun.lean ====
/-
  The kernel's run, with its result named.

  After the region the program keeps the first 100000 columns of the 1024 × 100352 array. A column below 100000 of the
  wide histogram is the same weighted count as in the 100000-column histogram: the entry's formula does not mention
  the number of columns. So the result buffer ends holding the histogram of the arguments with 100000 columns.
-/
import proofs.«419220_j29300266893362_2_alg».proof.Proof.KernelBlocks

noncomputable section

open scoped BigOperators

namespace Cert.KernelIdeal.HistBody

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The histogram of the arguments with 100000 columns: the program's result. -/
abbrev result (c : Dev nD) : S1024x100000.Idx → EReal :=
  Cert.Spec.counts 100000 (m ((c : Thread nD τ).loc main_arg0)) (m ((c : Thread nD τ).loc main_arg1))

/-- What the lines after the region leave in the result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.tc.devRef main_v2) = wide m c :=
    (Pipeline.withArrays_arr spec0 launch0.win.arr_inj c _ _ 2).trans (final_wide m c)
  rw [hA]
  funext i
  obtain ⟨b, d, rfl⟩ : ∃ (b : Fin 1024) (d : Fin 100000), i = ix2 b d := ⟨i 0, i 1, eq_ix2 i⟩
  refine (extractStridedSlice_apply ![0, 0] (wide m c) Facts₀.slices_S1024x100352_S1024x100000_0_0 (ix2 b d)
    (ix2 b ⟨d.val, by have := d.isLt; omega⟩) (fun a => ?_)).trans ?_
  · match a with
    | ⟨0, _⟩ => show b.val = 0 + b.val; omega
    | ⟨1, _⟩ => show d.val = 0 + d.val; omega
  · rfl

/-- THE KERNEL'S RUN: every weakly fair execution ends with the result buffer at the histogram of the arguments and the
    arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.HistBody

end
-- ==== Proof.RefCounts.lean ====
/-
  The reference's scatter-add, read at an index: a weighted histogram of the tokens.

  The reference adds, into a zero array of 1024 × 100000 columns, the weight of every position `(b, s)` at the element
  named by the index pair (row, column) = (`b`, token `(b, s)`). The pair is the concatenation of two index arrays: the
  row array is the iota `b` (behind a select on `b < 0` that never fires), the column array is the token behind a
  select on `token < 0` that does not fire for a non-negative token. An update lands on element `i` exactly when its
  start (the pair read signed; there is no window coordinate, both operand axes being inserted) is `i`'s coordinate
  on both axes. So element `(b, d)` is `0 +` the sum of the weights of the positions `(b', s)` with `b' = b` and token
  `d`: the rows `b' ≠ b` contribute nothing, and within row `b` the condition "the token read signed is `d`" is "the
  token is the word of `d`", `d` being below 2³¹. A token of 100000 or more lands nowhere and equals no such word.
-/
import proofs.«419220_j29300266893362_2_alg».proof.Proof.Gen.ReferenceIdeal.Read
import proofs.«419220_j29300266893362_2_alg».proof.Proof.Spec
import Idealize.ShloMosaic.Lib.IdealHost
import Idealize.ShloMosaic.Lib.StableHlo.Predicate

noncomputable section
open scoped BigOperators

namespace Cert.RefCounts

open Cert.ReferenceIdeal Cert.ReferenceIdeal.Read Idealize.ShloMosaic Idealize.ShloMosaic.ValueIdx

/-! ## Where an update lands, for any scatter -/

/-- An update lands on the operand element `i` exactly when, on every axis, its start plus its window coordinate
    is that element's coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  constructor
  · intro h a
    split at h
    · next hin =>
      have := congrFun (Option.some.inj h) a
      have hv := congrArg Fin.val this
      simp only at hv
      have := hin a
      omega
    · exact absurd h (by simp)
  · intro h
    have hin : ∀ a, 0 ≤ d.start j idx a + d.window j a ∧ d.start j idx a + d.window j a < s.size a := by
      intro a; rw [h a]; have := (i a).isLt; omega
    rw [dif_pos hin]
    congr 1
    funext a
    apply Fin.ext
    simp only
    rw [h a]; simp

/-! ## Words -/

/-- A signed "less than zero" test of a non-negative word is 0. -/
theorem slt_zero_of_nonneg {x : BitVec 32} (hx : 0 ≤ x.toInt) : IntOp.cmpi .slt x 0#32 = 0#1 := by
  apply eq_zero_of_ne_one
  rw [IntOp.cmpi_slt, show (0#32 : BitVec 32).toInt = 0 from by decide]
  omega

/-- A word read signed is the natural number `d` below 2³¹ exactly when it is the word of `d`. -/
theorem toInt_eq_iff_eq_ofNat (x : BitVec 32) (d : Nat) (hd : d < 2 ^ 31) :
    x.toInt = (d : Int) ↔ x = BitVec.ofNat 32 d := by
  rw [← StableHlo.Predicate.toInt_ofNat_small d hd, BitVec.toInt_inj]

variable [Cert.ReferenceIdeal.Facts]

/-! ## This scatter's start and window -/

/-- The scatter's dimension numbers: both operand axes inserted, the index pair on the last axis of the indices. -/
abbrev dS := scatter_S1024x100000_S1024x200x2_S1024x200_n_01_01_2

/-- No operand axis is a window axis: the window coordinate is 0. -/
theorem window_eq (j : S1024x200.Idx) (a : Fin 2) : dS.window j a = 0 := by
  unfold ScatterDims.window
  refine dif_neg ?_
  show a ∉ Shape.kept S1024x100000 [0, 1]
  revert a; decide

/-- Update `(b, s)` reads component `c` of its index pair at `(b, s, c)`. -/
theorem siIdx_eq (j : S1024x200.Idx) (c : Fin dS.scatterDimsToOperandDims.length) (c' : Fin 2) (hc : c.val = c'.val) :
    dS.siIdx j c = ix3 (j 0) (j 1) c' := by
  funext b
  unfold ScatterDims.siIdx
  match b with
  | ⟨0, _⟩ =>
    exact (dif_neg (show ¬ (0 : Nat) = 2 by omega)).trans (Fin.ext rfl)
  | ⟨1, _⟩ =>
    exact (dif_neg (show ¬ (1 : Nat) = 2 by omega)).trans (Fin.ext rfl)
  | ⟨2, _⟩ =>
    exact (dif_pos (show (2 : Nat) = 2 from rfl)).trans (Fin.ext hc)

/-- The start on the row axis: the first component of the pair, read signed. -/
theorem start_zero {w : Nat} (j : S1024x200.Idx) (idx : IVec S1024x200x2 w) :
    dS.start j idx 0 = (idx (ix3 (j 0) (j 1) 0)).toInt := by
  unfold ScatterDims.start
  exact (dif_pos (show (0 : Fin 2) ∈ [0, 1] by decide)).trans
    (congrArg (fun z => (idx z).toInt) (siIdx_eq j _ 0 rfl))

/-- The start on the column axis: the second component of the pair, read signed. -/
theorem start_one {w : Nat} (j : S1024x200.Idx) (idx : IVec S1024x200x2 w) :
    dS.start j idx 1 = (idx (ix3 (j 0) (j 1) 1)).toInt := by
  unfold ScatterDims.start
  exact (dif_pos (show (1 : Fin 2) ∈ [0, 1] by decide)).trans
    (congrArg (fun z => (idx z).toInt) (siIdx_eq j _ 1 rfl))

/-! ## The index pairs -/

section
variable {F : FTy → Type} [FloatOps F]

/-- The row component of the index pair of update `(b, s)`: the word of `b`. -/
theorem index_row (x0 : (⟨S1024x200, .i32⟩ : BufTy).Contents (Elt F)) (b : Fin 1024) (s : Fin 200) :
    val_main_v16 (F := F) x0 (ix3 b s (0 : Fin 2)) = BitVec.ofNat 32 b.val := by
  unfold val_main_v16
  rw [concatenate_pair_apply_left (s₁ := S1024x200x1) (s₂ := S1024x200x1) (2 : Fin 3) _ _ _ (ix3 b s (0 : Fin 2)) rfl
    (ix3 b s (0 : Fin 1)) (fun c => match c with | ⟨0, _⟩ => rfl | ⟨1, _⟩ => rfl | ⟨2, _⟩ => rfl)]
  rw [val_main_v14_apply, val_main_v13_apply, val_main_v7_apply, val_main_v4_apply, val_main_v1_apply, val_main_v0_apply]
  rw [val_main_v3_apply, val_main_c_apply]
  have h : (0 : Int) ≤ (BitVec.ofNat 32 b.val).toInt := by
    rw [StableHlo.Predicate.toInt_ofNat_small _ (by have := b.isLt; omega)]; omega
  show Scalar.select (IntOp.cmpi .slt (BitVec.ofNat 32 b.val) 0#32) _ (BitVec.ofNat 32 b.val) = _
  rw [slt_zero_of_nonneg h, select_zero]

/-- The column component of the index pair of update `(b, s)`, for a non-negative token: the token. -/
theorem index_col (x0 : (⟨S1024x200, .i32⟩ : BufTy).Contents (Elt F)) (b : Fin 1024) (s : Fin 200)
    (hpos : 0 ≤ (x0 (ix2 b s)).toInt) :
    val_main_v16 (F := F) x0 (ix3 b s (1 : Fin 2)) = x0 (ix2 b s) := by
  unfold val_main_v16
  rw [concatenate_pair_apply_right (s₁ := S1024x200x1) (s₂ := S1024x200x1) (2 : Fin 3) _ _ _ (ix3 b s (1 : Fin 2)) rfl rfl
    (ix3 b s (0 : Fin 1))
    (fun c => match c with | ⟨0, _⟩ => fun _ => rfl | ⟨1, _⟩ => fun _ => rfl | ⟨2, _⟩ => fun h => absurd rfl h) rfl]
  rw [val_main_v15_apply, val_main_v12_apply, val_main_v9_apply, val_main_v8_apply, val_main_c_1_apply]
  have e : idx_main_v15 (ix3 b s (0 : Fin 1)) = ix2 b s := by
    funext a; match a with | ⟨0, _⟩ => rfl | ⟨1, _⟩ => rfl
  rw [e, slt_zero_of_nonneg hpos, select_zero]

/-- Update `j` lands on element `i` exactly when its row is `i`'s and its token, read signed, is `i`'s column. -/
theorem lands_iff (x0 : (⟨S1024x200, .i32⟩ : BufTy).Contents (Elt F)) (hpos : ∀ i, 0 ≤ (x0 i).toInt)
    (j : S1024x200.Idx) (i : S1024x100000.Idx) :
    dS.resultIdx? j (val_main_v16 (F := F) x0) = some i ↔
      ((j 0).val = (i 0).val ∧ (x0 j).toInt = ((i 1).val : Int)) := by
  rw [resultIdx?_eq_some_iff, Fin.forall_fin_two, start_zero, start_one, window_eq, window_eq,
    index_row x0 (j 0) (j 1), index_col x0 (j 0) (j 1) (hpos _),
    StableHlo.Predicate.toInt_ofNat_small _ (by have := idx2_lt0 j; omega)]
  have ej : (x0 (ix2 (j 0) (j 1))).toInt = (x0 j).toInt := congrArg (fun z => (x0 z).toInt) (eq_ix2 j).symm
  constructor <;> rintro ⟨h1, h2⟩ <;> constructor <;> omega

end

/-! ## The scatter-add at an index -/

/-- The reference's result is the weighted histogram of the tokens, when every token is non-negative. -/
theorem ref_counts (x0 : (⟨Cert.ReferenceIdeal.S1024x200, .i32⟩ : BufTy).Contents (Elt Ideal))
    (x1 : (⟨Cert.ReferenceIdeal.S1024x200, .f32⟩ : BufTy).Contents (Elt Ideal)) (hpos : ∀ i, 0 ≤ (x0 i).toInt) :
    Cert.ReferenceIdeal.Read.val_main_v17 (F := Ideal) x0 x1 = Cert.Spec.counts 100000 x0 x1 := by
  funext i
  unfold val_main_v17 Host.scatterAdd Cert.Spec.counts
  rw [Ideal.hostScatterAdd_def]
  unfold Ideal.hostScatterAdd
  rw [val_main_v2_apply, val_main_cst_apply, show (FloatOps.ofBits .f32 0x00000000#32 : Ideal .f32) = 0 from Ideal.ofBits_zero_f32,
    zero_add, Finset.sum_filter, sum_idx2]
  have hd : (i 1).val < 2 ^ 31 := by have := idx2_lt1 i; omega
  refine (Finset.sum_eq_single_of_mem (i 0 : Fin 1024) (Finset.mem_univ _) ?_).trans ?_
  · -- the rows other than `i`'s contribute nothing
    intro a _ ha
    exact Finset.sum_eq_zero fun b _ => if_neg fun h => ha (Fin.ext ((lands_iff x0 hpos _ i).1 h).1)
  · -- within row `i 0`, position `s` lands on column `i 1` exactly when its token is that column's word
    refine Finset.sum_congr rfl fun s _ => if_congr ?_ rfl rfl
    exact (lands_iff x0 hpos _ i).trans
      ⟨fun h => (toInt_eq_iff_eq_ofNat _ _ hd).1 h.2, fun h => ⟨rfl, (toInt_eq_iff_eq_ofNat _ _ hd).2 h⟩⟩

end Cert.RefCounts
-- ==== Proof.PreTokens.lean ====
/-
  The precondition read back: where the printed predicate is all ones, every token is non-negative as a signed word.

  The predicate is the conjunction of two reductions by `and` over all 1024 × 200 positions; the second reduces the
  comparison "token ≥ 0, signed" of every token against the zero word. A conjunction that is 1 has both conjuncts 1;
  a reduction by `and` over every axis that is 1 met a 1 at every position; and the signed comparison that is 1 at a
  position says that the zero word's signed value, 0, is at most the token's.
-/
import proofs.«419220_j29300266893362_2_alg».proof.Pre_finite_inputs
import Idealize.ShloMosaic.Lib.ReduceAll
import Idealize.ShloMosaic.Lib.IdealHost

namespace Cert.PreTokens

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- Where the precondition holds, every token is non-negative (read signed). -/
theorem tokens_nonneg {F : FTy → Type} [FloatOps F] (x0 : IVec Cert.Pre_finite_inputs.S1024x200 32)
    (x1 : FVec F Cert.Pre_finite_inputs.S1024x200 .f32)
    (h : Cert.Pre_finite_inputs.fn (F := F) x0 x1 = fun _ => 1#1) : ∀ i, 0 ≤ (x0 i).toInt := by
  intro i
  have h0 := congrFun h ix0
  dsimp only [fn] at h0
  -- the conjunction is 1: so is its second conjunct, the reduction of the comparisons
  have h1 := (IntOp.andi_eq_one.1 h0).2
  -- a reduction by `and` over every axis that is 1 met a 1 at position `i`
  have h2 := Host.reduce_andi_all _ _ _ _ _ h1 i
  -- the comparison at `i`: the zero word is at most the token, both read signed
  have h3 := IntOp.cmpi_sge.1 h2
  rw [broadcastInDim_scalar_apply] at h3
  exact h3

end Cert.PreTokens
-- ==== Proof.lean ====
/-
  A weighted histogram, two ways.

  The kernel computes, for every batch row `b` and depth `d`, `∑ s, [tokens (b, s) = d] · on_values (b, s)` by comparing
  every token of the row with `d` (a one-hot compare and reduce, tile by tile, over 100352 columns of which the first
  100000 are kept); the reference adds `on_values (b, s)` into a zero array at `(b, tokens (b, s))` (a scatter-add that
  drops what lands outside the array, after jnp's wrap of a negative index). For non-negative tokens the scatter's
  column is the token itself, and both programs compute the same sum on the extended reals: no law beyond reordering
  a finite sum is used, so the finiteness of the weights plays no part. A token in [-100000, 0) would be wrapped by the
  reference and matched by no column of the kernel: the precondition's added conjunct `tokens ≥ 0` (the lower end of the
  index range of the axis the tokens index) excludes exactly those.

  The three frames: the kernel's two are the generated frame certificates; the reference's is its generated run with
  the result dropped. `preserves` has no ledger entry. `algebraic`: the kernel's run ends at the histogram
  (Proof/KernelRun.lean, over the tile's value in Proof/KernelChunk.lean and Proof/KernelLoop.lean and the tiling in
  Proof/KernelBlocks.lean), the reference's run at its scatter-add, which is the same histogram (Proof/RefCounts.lean)
  where the tokens are non-negative (Proof/PreTokens.lean reads that off the precondition).
-/
import proofs.«419220_j29300266893362_2_alg».proof.Defs
import proofs.«419220_j29300266893362_2_alg».proof.Proof.Gen.Kernel
import proofs.«419220_j29300266893362_2_alg».proof.Proof.Gen.Kernel.Skeleton
import proofs.«419220_j29300266893362_2_alg».proof.Proof.Gen.Kernel.Loops
import proofs.«419220_j29300266893362_2_alg».proof.Proof.Gen.Kernel.Launch
import proofs.«419220_j29300266893362_2_alg».proof.Proof.Gen.Kernel.Points
import proofs.«419220_j29300266893362_2_alg».proof.Proof.Gen.Kernel.Frame
import proofs.«419220_j29300266893362_2_alg».proof.Proof.Gen.KernelIdeal
import proofs.«419220_j29300266893362_2_alg».proof.Proof.Gen.KernelIdeal.Skeleton
import proofs.«419220_j29300266893362_2_alg».proof.Proof.Gen.KernelIdeal.Loops
import proofs.«419220_j29300266893362_2_alg».proof.Proof.Gen.KernelIdeal.Launch
import proofs.«419220_j29300266893362_2_alg».proof.Proof.Gen.KernelIdeal.Points
import proofs.«419220_j29300266893362_2_alg».proof.Proof.Gen.KernelIdeal.Frame
import proofs.«419220_j29300266893362_2_alg».proof.Proof.Gen.ReferenceIdeal
import proofs.«419220_j29300266893362_2_alg».proof.Proof.Gen.ReferenceIdeal.Run
import proofs.«419220_j29300266893362_2_alg».proof.Proof.Gen.ReferenceIdeal.Read
import proofs.«419220_j29300266893362_2_alg».proof.Proof.Gen.Pre_finite_inputs
import proofs.«419220_j29300266893362_2_alg».proof.Proof.KernelRun
import proofs.«419220_j29300266893362_2_alg».proof.Proof.RefCounts
import proofs.«419220_j29300266893362_2_alg».proof.Proof.PreTokens
import Idealize.ShloMosaic.Adequacy
import Idealize.ShloMosaic.Init

noncomputable section

namespace Cert.Proof

open Idealize.ShloMosaic Idealize.SL.Sem

/-- The word-level kernel runs and keeps its arguments: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the weighted histogram of the arguments: the kernel by its tiles, the reference by its
    scatter-add at non-negative tokens. -/
theorem algebraic : Cert.algebraic_KernelIdeal_ReferenceIdeal := by
  intro m ρ m' ρ' hpre hagree
  refine ⟨fun c => Cert.KernelIdeal.HistBody.result m c, Cert.KernelIdeal.HistBody.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact Cert.RefCounts.ref_counts _ _ (Cert.PreTokens.tokens_nonneg _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
